-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S1024 : Shape := ⟨1, ![1024]⟩
abbrev S16x2048 : Shape := ⟨2, ![16, 2048]⟩
abbrev S_ : Shape := ⟨0, ![]⟩
abbrev S2048x16 : Shape := ⟨2, ![2048, 16]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S1024 : S_.BroadcastsInDim S1024 (![] : Fin 0 → Fin S1024.rank)
  reducesTo_S1024_S_d0 : S1024.ReducesTo [0] S_
  transposes_S16x2048_S2048x16_1_0 : S16x2048.Transposes [1, 0] S2048x16
  natLt_1_32 : 1 < 32
  reducesTo_S2048x16_S_d0_1 : S2048x16.ReducesTo [0, 1] S_

variable [Facts]

def fn_part1 {F : FTy → Type} [FloatOps F] (main_v13 : IVec S_ 1) (main_v16 : IVec S2048x16 32) (main_c_4 : IVec S_ 32) : IVec S_ 1 :=
  let main_v17 : IVec S_ 32 := (fun x v => Host.reduce IntOp.addi x v reducesTo_S2048x16_S_d0_1 h_S_) main_v16 main_c_4
  let main_c_5 : IVec S_ 32 := constantI S_ 32 0#32
  let main_v18 : IVec S_ 1 := cmpi .sgt main_v17 main_c_5
  let main_v19 : IVec S_ 1 := andi main_v13 main_v18
  main_v19

def fn {F : FTy → Type} [FloatOps F] (main_arg0 : FVec F S2048x16x1024 .f32) (main_arg1 : FVec F S1024 .f32) (main_arg2 : FVec F S1024 .f32) (main_arg3 : IVec S16x2048 1) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : IVec S16x2048 1 := noti main_arg3
  let main_v15 : IVec S2048x16 1 := (transpose S2048x16 [1, 0] · transposes_S16x2048_S2048x16_1_0) main_v14
  let main_v16 : IVec S2048x16 32 := (extui 32 · natLt_1_32) main_v15
  let main_c_4 : IVec S_ 32 := constantI S_ 32 0#32
  fn_part1 (F := F) main_v13 main_v16 main_c_4
-- ==== Kernel.lean ====
abbrev S2048x16x1024 : Shape := ⟨3, ![2048, 16, 1024]⟩
abbrev S1024 : Shape := ⟨1, ![1024]⟩
abbrev S16x2048 : Shape := ⟨2, ![16, 2048]⟩
abbrev S2048x16 : Shape := ⟨2, ![2048, 16]⟩
abbrev S_ : Shape := ⟨0, ![]⟩
abbrev S128x16x1024 : Shape := ⟨3, ![128, 16, 1024]⟩
abbrev S128x16 : Shape := ⟨2, ![128, 16]⟩
abbrev S128x16x1 : Shape := ⟨3, ![128, 16, 1]⟩
abbrev S128x1024 : Shape := ⟨2, ![128, 1024]⟩
abbrev S1x1x1024 : Shape := ⟨3, ![1, 1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2048x16x1024, .f32⟩
  | .hbm, ⟨1, _⟩ => ⟨S1024, .f32⟩
  | .hbm, ⟨2, _⟩ => ⟨S1024, .f32⟩
  | .hbm, ⟨3, _⟩ => ⟨S16x2048, .i1⟩
  | .hbm, ⟨4, _⟩ => ⟨S16x2048, .i1⟩
  | .hbm, ⟨5, _⟩ => ⟨S2048x16, .i1⟩
  | .hbm, ⟨6, _⟩ => ⟨S2048x16, .f32⟩
  | .hbm, ⟨7, _⟩ => ⟨S_, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S2048x16x1024, .f32⟩
  | .local _ .vmem, ⟨0, _⟩ => ⟨S128x16x1024, .f32⟩
  | .local _ .vmem, ⟨1, _⟩ => ⟨S128x16x1024, .f32⟩
  | .local _ .vmem, ⟨2, _⟩ => ⟨S128x16, .f32⟩
  | .local _ .vmem, ⟨3, _⟩ => ⟨S128x16, .f32⟩
  | .local _ .vmem, ⟨4, _⟩ => ⟨S1024, .f32⟩
  | .local _ .vmem, ⟨5, _⟩ => ⟨S128x16x1024, .f32⟩
  | .local _ .vmem, ⟨6, _⟩ => ⟨S128x16x1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S128x16x1024, .f32⟩
  | .local _ .vmem, ⟨11, _⟩ => ⟨S128x16x1024, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S128x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S16x2048_S2048x16_1_0 : S16x2048.Transposes [1, 0] S2048x16
  reducesTo_S2048x16_S_d0_1 : S2048x16.ReducesTo [0, 1] S_
  h_S_ : 0 < S_.numel
  inb_S1024_S1024_0 : ∀ a, (![0] : Fin 1 → Nat) a + S1024.size a ≤ S1024.size a
  h_S1024 : 0 < S1024.numel
  inb_S128x16x1024_S128x16x1024_0_0_0 : ∀ a, (![0, 0, 0] : Fin 3 → Nat) a + S128x16x1024.size a ≤ S128x16x1024.size a
  h_S128x16x1024 : 0 < S128x16x1024.numel
  reduces_S128x16x1024_S128x16 : S128x16x1024.Reduces [2] S128x16
  shapeCasts_S128x16_S128x16x1 : S128x16.ShapeCasts S128x16x1
  broadcasts_S128x16x1_S128x16x1024 : S128x16x1.Broadcasts S128x16x1024
  inb_S128x16_S128x16_0_0 : ∀ a, (![0, 0] : Fin 2 → Nat) a + S128x16.size a ≤ S128x16.size a
  h_S128x16 : 0 < S128x16.numel
  shapeCasts_S128x16_S128x16 : S128x16.ShapeCasts S128x16
  reduces_S128x16x1024_S128x1024 : S128x16x1024.Reduces [1] S128x1024
  reduces_S128x1024_S1024 : S128x1024.Reduces [0] S1024
  shapeCasts_S1024_S1024 : S1024.ShapeCasts S1024
  bcast_S_S1024 : S_.BroadcastsInDim S1024 (![] : Fin 0 → Fin S1024.rank)
  shapeCasts_S1024_S1x1x1024 : S1024.ShapeCasts S1x1x1024
  broadcasts_S1x1x1024_S128x16x1024 : S1x1x1024.Broadcasts S128x16x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x1024.size a ≤ S2048x16x1024.size a
  hwx0_0 : ∀ i : grid0.Coords, EltTy.bits .f32 = 32 ∨ (Rect.block (s := S2048x16x1024) S128x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S2048x16.size a
  hwx0_1 : ∀ i : grid0.Coords, EltTy.bits .f32 = 32 ∨ (Rect.block (s := S2048x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x1024.size a ≤ S2048x16x1024.size a
  hwx1_0 : ∀ i : grid1.Coords, EltTy.bits .f32 = 32 ∨ (Rect.block (s := S2048x16x1024) S128x16x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x16x1024.size a ≤ S2048x16x1024.size a
  hwx1_4 : ∀ i : grid1.Coords, EltTy.bits .f32 = 32 ∨ (Rect.block (s := S2048x16x1024) S128x16x1024.size (cc1_transform_4 i) (hinb1_4 i)).WholeWords (EltTy.packing .f32)

variable [Facts₀]

abbrev win0_0 : Pipeline.Window sig grid0 :=
  Pipeline.Window.ofSpec (Memref.whole main_arg0) S128x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x16x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x16x1024 : Shape := ⟨3, ![2048, 16, 1024]⟩
abbrev S1024 : Shape := ⟨1, ![1024]⟩
abbrev S16x2048 : Shape := ⟨2, ![16, 2048]⟩
abbrev S_ : Shape := ⟨0, ![]⟩
abbrev S2048x16 : Shape := ⟨2, ![2048, 16]⟩
abbrev S2048x16x1 : Shape := ⟨3, ![2048, 16, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S1024, .f32⟩
  | .hbm, ⟨2, _⟩ => ⟨S1024, .f32⟩
  | .hbm, ⟨3, _⟩ => ⟨S16x2048, .i1⟩
  | .hbm, ⟨4, _⟩ => ⟨S2048x16x1024, .f32⟩
  | .hbm, ⟨5, _⟩ => ⟨S_, .f32⟩
  | .hbm, ⟨6, _⟩ => ⟨S2048x16, .f32⟩
  | .hbm, ⟨7, _⟩ => ⟨S2048x16x1, .f32⟩
  | .hbm, ⟨8, _⟩ => ⟨S_, .f32⟩
  | .hbm, ⟨9, _⟩ => ⟨S2048x16x1, .f32⟩
  | .hbm, ⟨10, _⟩ => ⟨S2048x16x1, .f32⟩
  | .hbm, ⟨11, _⟩ => ⟨S_, .f32⟩
  | .hbm, ⟨12, _⟩ => ⟨S2048x16x1, .f32⟩
  | .hbm, ⟨13, _⟩ => ⟨S2048x16x1, .f32⟩
  | .hbm, ⟨14, _⟩ => ⟨S2048x16x1, .f32⟩
  | .hbm, ⟨15, _⟩ => ⟨S2048x16x1024, .f32⟩
  | .hbm, ⟨16, _⟩ => ⟨S2048x16x1024, .f32⟩
  | .hbm, ⟨17, _⟩ => ⟨S16x2048, .i1⟩
  | .hbm, ⟨18, _⟩ => ⟨S2048x16, .i1⟩
  | .hbm, ⟨19, _⟩ => ⟨S2048x16, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S2048x16x1024, .f32⟩
  | .hbm, ⟨24, _⟩ => ⟨S2048x16x1, .i1⟩
  | .hbm, ⟨25, _⟩ => ⟨S2048x16x1, .f32⟩
  | .hbm, ⟨26, _⟩ => ⟨S2048x16x1024, .f32⟩
  | .hbm, ⟨27, _⟩ => ⟨S2048x16x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1x1x1024, .f32⟩
  | .hbm, ⟨37, _⟩ => ⟨S2048x16x1024, .f32⟩
  | .hbm, ⟨38, _⟩ => ⟨S2048x16x1024, .f32⟩
  | .hbm, ⟨39, _⟩ => ⟨S1x1x1024, .f32⟩
  | .hbm, ⟨40, _⟩ => ⟨S2048x16x1024, .f32⟩
  | .hbm, ⟨41, _⟩ => ⟨S2048x16x1024, .f32⟩
  | .hbm, ⟨42, _⟩ => ⟨S1x1x1024, .f32⟩
  | .hbm, ⟨43, _⟩ => ⟨S2048x16x1024, .f32⟩
  | .hbm, ⟨44, _⟩ => ⟨S2048x16x1024, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S2048x16x1024_S2048x16_d2 : S2048x16x1024.ReducesTo [2] S2048x16
  h_S_ : 0 < S_.numel
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  bcast_S2048x16x1_S2048x16x1024_0_1_2 : S2048x16x1.BroadcastsInDim S2048x16x1024 (![0, 1, 2] : Fin 3 → Fin S2048x16x1024.rank)
  transposes_S16x2048_S2048x16_1_0 : S16x2048.Transposes [1, 0] S2048x16
  natLt_1_32 : 1 < 32
  reducesTo_S2048x16_S_d0_1 : S2048x16.ReducesTo [0, 1] S_
  reducesTo_S2048x16x1024_S1024_d0_1 : S2048x16x1024.ReducesTo [0, 1] S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2048x16x1024_0_1_2 : S1x1x1024.BroadcastsInDim S2048x16x1024 (![0, 1, 2] : Fin 3 → Fin S2048x16x1024.rank)

variable [Facts₀]

class Facts : Prop extends Facts₀ where

variable [Facts]
-- ==== Proof.Spec.lean ====
/-
  The mathematics of the two programs, stated once over plain coordinates.

  Input: an array x[t, b, c] (2048 positions, 16 sequences, 1024 channels), per-channel weight and bias, and a
  padding mask[b, t] (a set bit marks padding). A position is VALID when its mask bit is clear.

  * Every token (t, b) is scaled by the reciprocal root of its mean square over the channels plus a small
    constant: the kernel multiplies by the reciprocal root, the reference divides by the root.
  * The power statistic of channel c is the sum, over the valid tokens, of the squared scaled entries; divided by
    the number of valid tokens it is the channel's variance.
  * The result is weight · (scaled entry / root of (variance + constant)) + bias, the kernel again multiplying by a
    reciprocal root where the reference divides by a root.
  The kernel accumulates the power statistic tile by tile (16 tiles of 128 positions).
-/
import Idealize.ShloMosaic.PureOps.Ideal.Laws
import Idealize.ShloMosaic.Lib.ValueIdx

noncomputable section

open scoped BigOperators

namespace Cert.Norm

open Idealize.ShloMosaic Idealize.ShloMosaic.ValueIdx

/-- The shapes: the input, a per-channel vector, the token grid, the mask as given. -/
abbrev SX : Shape := ⟨3, ![2048, 16, 1024]⟩
abbrev SC : Shape := ⟨1, ![1024]⟩
abbrev SV : Shape := ⟨2, ![2048, 16]⟩
abbrev SM : Shape := ⟨2, ![16, 2048]⟩
abbrev S0 : Shape := ⟨0, ![]⟩

/-- The small constant added under both roots, and the channel count the mean divides by. -/
def eps : EReal := Ideal.ofBits .f32 0x3727C5AC#32
def chan : EReal := Ideal.ofBits .f32 0x44800000#32

/-- Token (t, b) is valid (1) or padding (0): the negated mask bit, read as a number. -/
def validAt (mask : SM.Idx → BitVec 1) (t : Fin 2048) (b : Fin 16) : EReal :=
  (((~~~ mask (ix2 b t)).toNat : ℝ) : EReal)

/-- The number of valid tokens. -/
def count (mask : SM.Idx → BitVec 1) : EReal := ∑ t : Fin 2048, ∑ b : Fin 16, validAt mask t b

/-- The number of set bits of a grid of token bits. -/
def bitCount (v : SV.Idx → BitVec 1) : ℕ := ∑ t : Fin 2048, ∑ b : Fin 16, (v (ix2 t b)).toNat

/-- Mean square of token (t, b) over the channels, plus the constant. -/
def denom (x : SX.Idx → EReal) (t : Fin 2048) (b : Fin 16) : EReal :=
  Ideal.div (∑ c : Fin 1024, x (ix3 t b c) * x (ix3 t b c)) chan + eps

/-- The scaled entry as the kernel forms it: a product with the reciprocal root. -/
def scaledK (x : SX.Idx → EReal) (t : Fin 2048) (b : Fin 16) (c : Fin 1024) : EReal :=
  x (ix3 t b c) * Ideal.rsqrt (denom x t b)

/-- The scaled entry as the reference forms it: a quotient by the root. -/
def scaledR (x : SX.Idx → EReal) (t : Fin 2048) (b : Fin 16) (c : Fin 1024) : EReal :=
  Ideal.div (x (ix3 t b c)) (Ideal.sqrt (denom x t b))

/-- Channel c's power statistic: the squared scaled entries summed over the tokens, each weighted by v. -/
def power (g : Fin 2048 → Fin 16 → Fin 1024 → EReal) (v : Fin 2048 → Fin 16 → EReal) (c : Fin 1024) : EReal :=
  ∑ t : Fin 2048, ∑ b : Fin 16, g t b c * g t b c * v t b

theorem tok_lt (T : Fin 16) (i : Fin 128) : 128 * T.val + i.val < 2048 := by omega

/-- Position i of tile T. -/
def tok (T : Fin 16) (i : Fin 128) : Fin 2048 := ⟨128 * T.val + i.val, tok_lt T i⟩

/-- The same statistic summed tile by tile: 16 tiles of 128 positions. -/
def powerTiled (g : Fin 2048 → Fin 16 → Fin 1024 → EReal) (v : Fin 2048 → Fin 16 → EReal) (c : Fin 1024) : EReal :=
  ∑ T : Fin 16, ∑ i : Fin 128, ∑ b : Fin 16, g (tok T i) b c * g (tok T i) b c * v (tok T i) b

/-- The kernel's result from the per-channel variance `var`: weight · (scaled · reciprocal root) + bias. -/
def outK (x : SX.Idx → EReal) (w bias var : SC.Idx → EReal) : SX.Idx → EReal := fun j =>
  w (ix1 (j 2)) * (scaledK x (j 0) (j 1) (j 2) * Ideal.rsqrt (var (ix1 (j 2)) + eps)) + bias (ix1 (j 2))

/-- The reference's result from the per-channel variance `var`: weight · (scaled / root) + bias. -/
def outR (x : SX.Idx → EReal) (w bias var : SC.Idx → EReal) : SX.Idx → EReal := fun j =>
  w (ix1 (j 2)) * Ideal.div (scaledR x (j 0) (j 1) (j 2)) (Ideal.sqrt (var (ix1 (j 2)) + eps)) + bias (ix1 (j 2))

/-- The variance as the kernel has it: the tiled statistic over the count `n`. -/
def varK (x : SX.Idx → EReal) (v : Fin 2048 → Fin 16 → EReal) (n : EReal) : SC.Idx → EReal := fun k =>
  Ideal.div (powerTiled (scaledK x) v (k 0)) n

/-- The variance as the reference has it. -/
def varR (x : SX.Idx → EReal) (v : Fin 2048 → Fin 16 → EReal) (n : EReal) : SC.Idx → EReal := fun k =>
  Ideal.div (power (scaledR x) v (k 0)) n

end Cert.Norm

end
-- ==== Proof.OutRegion.lean ====
/-
  The value the second kernel region leaves in its output array.

  Each of the 16 grid points reads a tile of 128 positions of the input x[t, b, c] (all 16 sequences, all 1024 channels)
  together with the whole weight, bias and variance vectors, and writes the tile of the same place of the output:
  at (t, b, c) the value
      weight c · ((x[t,b,c] · rsqrt(mean over channels of x[t,b,·]² + ε)) · rsqrt(variance c + ε)) + bias c.
  The tiles partition the 2048 positions, so the whole output array is that one function of the four arrays read.

  The argument goes in three steps: the tile arithmetic read at one coordinate triple; what a grid point writes back,
  as the corresponding tile of the whole-array function; and the tiles covering every position.
-/
import proofs.«143038_j2413771621060_1_alg».proof.Proof.Gen.KernelIdeal.Frame
import proofs.«143038_j2413771621060_1_alg».proof.Proof.Spec
import Idealize.ShloMosaic.Lib.Pipeline.Value
import Idealize.ShloMosaic.Lib.ValueLayout

noncomputable section

namespace Cert.KernelIdeal.OutRegion

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## Re-shapings and the channel sum, read at coordinates -/

section Layout
variable {α : Type}

/-- A per-token statistic [128, 16] given a trailing unit axis reads, at (p, q, u), the statistic of token (p, q):
    both positions are the same in row-major order since the unit coordinate is 0. -/
theorem cast_keep_apply (v : S128x16.Idx → α) (h : S128x16.ShapeCasts S128x16x1) (p : Fin 128) (q : Fin 16) (u : Fin 1) :
    shapeCast S128x16x1 v h (ix3 p q u) = v (ix2 p q) :=
  shapeCast_apply v h _ _ (by
    have hu : u.val = 0 := by omega
    rw [Shape.rowMajor_val_two, Shape.rowMajor_val_three]
    show p.val * 16 + q.val = (p.val * 16 + q.val) * 1 + u.val
    omega)

/-- The per-token column [128, 16, 1] spread along the channels: every channel r of token (p, q) sees the token's one entry. -/
theorem spread_lane_apply (v : S128x16x1.Idx → α) (h : S128x16x1.Broadcasts S128x16x1024) (p : Fin 128) (q : Fin 16) (r : Fin 1024) :
    broadcastTo S128x16x1024 v h (ix3 p q r) = v (ix3 p q (0 : Fin 1)) := by
  refine broadcastTo_apply v h (ix3 p q r) (ix3 p q (0 : Fin 1)) fun ax => ?_
  match ax with
  | ⟨0, _⟩ => rfl
  | ⟨1, _⟩ => rfl
  | ⟨2, _⟩ => rfl

/-- A per-channel vector [1024] given two leading unit axes reads, at (a, b, r), the vector at channel r. -/
theorem cast_row_apply (v : S1024.Idx → α) (h : S1024.ShapeCasts S1x1x1024) (a b : Fin 1) (r : Fin 1024) :
    shapeCast S1x1x1024 v h (ix3 a b r) = v (ix1 r) :=
  shapeCast_apply v h _ _ (by
    have ha : a.val = 0 := by omega
    have hb : b.val = 0 := by omega
    rw [Shape.rowMajor_val_one, Shape.rowMajor_val_three]
    show r.val = (a.val * 1 + b.val) * 1024 + r.val
    omega)

/-- The per-channel row [1, 1, 1024] spread over all tokens: token (p, q) sees, at channel r, the row's entry r. -/
theorem spread_row_apply (v : S1x1x1024.Idx → α) (h : S1x1x1024.Broadcasts S128x16x1024) (p : Fin 128) (q : Fin 16) (r : Fin 1024) :
    broadcastTo S128x16x1024 v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ => rfl

end Layout

/-- The sum over the channel axis of a [128, 16, 1024] tile, at token (p, q), is the sum over k of the entries (p, q, k). -/
theorem lane_sum_apply (v : FVec Ideal S128x16x1024 .f32) (h : S128x16x1024.Reduces [2] S128x16) (hφ : FKind.Formats .f32)
    (hacc : (0x00000000#32 : BitVec 32) = 0x00000000#32) (p : Fin 128) (q : Fin 16) :
    multiReduction (F := Ideal) .add [2] S128x16 v 0x00000000#32 h hφ hacc (ix2 p q) = ∑ k : Fin 1024, v (ix3 p q k) := by
  refine (Ideal.multiReduction_add_single v _ h hφ hacc (ix2 p q)).trans ?_
  refine Finset.sum_congr rfl fun k _ => congrArg v ?_
  funext ax
  match ax with
  | ⟨0, _⟩ => rfl
  | ⟨1, _⟩ => rfl
  | ⟨2, _⟩ => rfl

/-- The reciprocal root of a vector is taken entry by entry. -/
theorem rsqrt_at {s : Shape} (v : FVec Ideal s .f32) (i : s.Idx) : rsqrt v i = Ideal.rsqrt (v i) := rfl

/-! ## The tile arithmetic at one entry -/

/-- At entry (p, q, r) of a tile the body computes
    weight r · ((x · rsqrt(Σₖ x[p,q,k]² / 1024 + ε)) · rsqrt(variance r + ε)) + bias r:
    every step is entrywise except the channel sum and the spreadings of the per-token and per-channel factors. -/
theorem payload_apply (x0 : Vec Ideal S128x16x1024 .f32) (xv xw xb : Vec Ideal S1024 .f32) (p : Fin 128) (q : Fin 16) (r : Fin 1024) :
    k1_pay1 x0 xv xw xb (ix3 p q r)
      = xw (ix1 r) * ((x0 (ix3 p q r) * Ideal.rsqrt (Ideal.div (∑ k : Fin 1024, x0 (ix3 p q k) * x0 (ix3 p q k)) Norm.chan + Norm.eps))
          * Ideal.rsqrt (xv (ix1 r) + Norm.eps)) + xb (ix1 r) := by
  have hsum := lane_sum_apply (mulf x0 x0) reduces_S128x16x1024_S128x16 (.inl rfl) rfl p q
  unfold k1_pay1
  simp only [addf_apply, mulf_apply, divf_apply, rsqrt_at, broadcast_apply, spread_lane_apply, spread_row_apply, cast_keep_apply,
    cast_row_apply, shapeCast_self]
  refine Eq.trans ?_ (congrArg (fun S => xw (ix1 r) * ((x0 (ix3 p q r) * Ideal.rsqrt (Ideal.div S Norm.chan + Norm.eps))
          * Ideal.rsqrt (xv (ix1 r) + Norm.eps)) + xb (ix1 r)) hsum)
  rfl

/-! ## The tiles of the arrays a grid point reads and writes -/

variable (V : (c : Dev nD) → (b : Ref sig .tc) → Buf (Elt Ideal) ((c : Thread nD τ).loc b))

/-- The four arrays the region reads, at their plain types: the input, the weight, the bias, the variance. -/
abbrev xarr (c : Dev nD) : Vec Ideal S2048x16x1024 .f32 := V c main_arg0
abbrev warr (c : Dev nD) : Vec Ideal S1024 .f32 := V c main_arg1
abbrev barr (c : Dev nD) : Vec Ideal S1024 .f32 := V c main_arg2
abbrev varr (c : Dev nD) : Vec Ideal S1024 .f32 := V c main_v6

theorem hz3 : (![0, 0, 0] : Fin 3 → Nat) = fun _ => 0 := funext fun a => by fin_cases a <;> rfl
theorem hz1 : (![0] : Fin 1 → Nat) = fun _ => 0 := funext fun a => by fin_cases a <;> rfl

/-- Grid point t reads tile t of the input and writes tile t of the output (tile index (t, 0, 0));
    the three vectors are read whole (tile index 0). -/
theorem idx_facts : ∀ t : Fin cfg1.N,
    win1_0.index t (0 : Fin 3) = t.val ∧ win1_0.index t (1 : Fin 3) = 0 ∧ win1_0.index t (2 : Fin 3) = 0
    ∧ win1_1.index t (0 : Fin 1) = 0 ∧ win1_2.index t (0 : Fin 1) = 0 ∧ win1_3.index t (0 : Fin 1) = 0
    ∧ win1_4.index t (0 : Fin 3) = t.val ∧ win1_4.index t (1 : Fin 3) = 0 ∧ win1_4.index t (2 : Fin 3) = 0 :=
  (by decide +kernel : ∀ t : Fin grid1.N, _)

theorem row_lt (t : Fin cfg1.N) (p : Fin 128) : 128 * t.val + p.val < 2048 := by
  have h : grid1.N = 16 := N_1
  have := t.isLt
  have : t.val < 16 := h ▸ this
  omega

/-- Position p of tile t is position 128 t + p of the array. -/
def row (t : Fin cfg1.N) (p : Fin 128) : Fin 2048 := ⟨128 * t.val + p.val, row_lt t p⟩

/-- The input tile at point t, entry (p, q, r), is the input array at (128 t + p, q, r). -/
theorem xblk_apply (c : Dev nD) (t : Fin cfg1.N) (p : Fin 128) (q : Fin 16) (r : Fin 1024) :
    (iblk1 V c 0 t : Vec Ideal S128x16x1024 .f32) (ix3 p q r) = xarr V c (ix3 (row t p) q r) := by
  obtain ⟨e0, e1, e2, -⟩ := idx_facts t
  unfold iblk1
  rw [View.read_apply]
  show V c main_arg0 _ = V c main_arg0 _
  congr 1
  funext a
  apply Fin.ext
  match a with
  | ⟨0, _⟩ => show win1_0.index t 0 * 128 + 1 * p.val = 128 * t.val + p.val; rw [e0]; omega
  | ⟨1, _⟩ => show win1_0.index t 1 * 16 + 1 * q.val = q.val; rw [e1]; omega
  | ⟨2, _⟩ => show win1_0.index t 2 * 1024 + 1 * r.val = r.val; rw [e2]; omega

/-- The weight as a point reads it is the weight vector. -/
theorem wblk_apply (c : Dev nD) (t : Fin cfg1.N) (r : Fin 1024) :
    (iblk1 V c 1 t : Vec Ideal S1024 .f32) (ix1 r) = warr V c (ix1 r) := by
  obtain ⟨-, -, -, e, -⟩ := idx_facts t
  unfold iblk1
  rw [View.read_apply]
  show V c main_arg1 _ = V c main_arg1 _
  congr 1
  funext a
  apply Fin.ext
  match a with
  | ⟨0, _⟩ => show win1_1.index t 0 * 1024 + 1 * r.val = r.val; rw [e]; omega

/-- The bias as a point reads it is the bias vector. -/
theorem bblk_apply (c : Dev nD) (t : Fin cfg1.N) (r : Fin 1024) :
    (iblk1 V c 2 t : Vec Ideal S1024 .f32) (ix1 r) = barr V c (ix1 r) := by
  obtain ⟨-, -, -, -, e, -⟩ := idx_facts t
  unfold iblk1
  rw [View.read_apply]
  show V c main_arg2 _ = V c main_arg2 _
  congr 1
  funext a
  apply Fin.ext
  match a with
  | ⟨0, _⟩ => show win1_2.index t 0 * 1024 + 1 * r.val = r.val; rw [e]; omega

/-- The variance as a point reads it is the variance vector. -/
theorem vblk_apply (c : Dev nD) (t : Fin cfg1.N) (r : Fin 1024) :
    (iblk1 V c 3 t : Vec Ideal S1024 .f32) (ix1 r) = varr V c (ix1 r) := by
  obtain ⟨-, -, -, -, -, e, -⟩ := idx_facts t
  unfold iblk1
  rw [View.read_apply]
  show V c main_v6 _ = V c main_v6 _
  congr 1
  funext a
  apply Fin.ext
  match a with
  | ⟨0, _⟩ => show win1_3.index t 0 * 1024 + 1 * r.val = r.val; rw [e]; omega

/-- Entry (p, q, r) of the output tile of point t sits at (128 t + p, q, r) of the output array. -/
theorem emb_apply (t : Fin cfg1.N) (p : Fin 128) (q : Fin 16) (r : Fin 1024) :
    ((cfg1.win 4).blk t).view.emb (ix3 p q r : S128x16x1024.Idx) = (ix3 (row t p) q r : S2048x16x1024.Idx) := by
  obtain ⟨-, -, -, -, -, -, e0, e1, e2⟩ := idx_facts t
  funext a
  apply Fin.ext
  match a with
  | ⟨0, _⟩ => show win1_4.index t 0 * 128 + 1 * p.val = 128 * t.val + p.val; rw [e0]; omega
  | ⟨1, _⟩ => show win1_4.index t 1 * 16 + 1 * q.val = q.val; rw [e1]; omega
  | ⟨2, _⟩ => show win1_4.index t 2 * 1024 + 1 * r.val = r.val; rw [e2]; omega

/-! ## What a grid point writes back, and the whole array -/

/-- Point t writes back tile t of the normalized-and-scaled array: the body's one store fills its whole buffer with the tile
    arithmetic of the tiles read, and each of those is the array read at the matching place; the channel sum of a token of the
    tile is the channel sum of the same token of the array. -/
theorem flushed_eq (c : Dev nD) (t : Fin cfg1.N) :
    (dat1 (F := Ideal) V c).flushed 4 t
      = ((cfg1.win 4).blk t).view.read (Elt Ideal) (Norm.outK (V c main_arg0) (V c main_arg1) (V c main_arg2) (V c main_v6)) := by
  show (cfg1.win 4).cut (grid1.coords t) ((dat1 V c).after 4 t) = _
  rw [after1_4]
  unfold out1_4
  rw [View.canon_unit_zero hz3]
  simp only [View.ld_unit_zero (S := S128x16x1024) hz3, View.ld_unit_zero (S := S1024) hz1]
  funext j
  obtain ⟨p, q, r, rfl⟩ : ∃ (p : Fin 128) (q : Fin 16) (r : Fin 1024), j = ix3 p q r := ⟨j 0, j 1, j 2, eq_ix3 j⟩
  rw [View.read_apply, emb_apply]
  show k1_pay1 (iblk1 V c 0 t) (iblk1 V c 3 t) (iblk1 V c 1 t) (iblk1 V c 2 t) (ix3 p q r) = _
  refine (payload_apply _ _ _ _ p q r).trans ?_
  have hx : ∀ k : Fin 1024, (iblk1 V c 0 t : Vec Ideal S128x16x1024 .f32) (ix3 p q k) = xarr V c (ix3 (row t p) q k) :=
    fun k => xblk_apply V c t p q k
  simp only [hx, wblk_apply V c t r, bblk_apply V c t r, vblk_apply V c t r]
  rfl

/-- Every point writes its tile back, and position i of the array lies in tile i / 128: the 16 tiles cover the array, which
    therefore ends holding the normalized-and-scaled array everywhere. -/
theorem final (c : Dev nD) :
    (dat1 (F := Ideal) V c).arrAt 4 cfg1.N = Norm.outK (V c main_arg0) (V c main_arg1) (V c main_arg2) (V c main_v6) := by
  refine (dat1 (F := Ideal) V c).arrAt_eq_of_cover 4 _ (fun t _ => flushed_eq V c t) fun i => ?_
  have h0 : (i 0 : Nat) < 2048 := (i 0).isLt
  have h1 : (i 1 : Nat) < 16 := (i 1).isLt
  have h2 : (i 2 : Nat) < 1024 := (i 2).isLt
  have hN : grid1.N = 16 := N_1
  have ht : (i 0 : Nat) / 128 < cfg1.N := by show _ < grid1.N; rw [hN]; omega
  obtain ⟨-, -, -, -, -, -, e0, e1, e2⟩ := idx_facts ⟨(i 0 : Nat) / 128, ht⟩
  refine ⟨⟨(i 0 : Nat) / 128, ht⟩, flush1_4 _, ?_⟩
  show i ∈ ((View.whole main_v7).slice (win1_4.rect ⟨(i 0 : Nat) / 128, ht⟩)).set
  rw [View.set_slice_whole, Rect.mem_set_unit]
  intro a
  match a with
  | ⟨0, _⟩ =>
    show win1_4.index ⟨(i 0 : Nat) / 128, ht⟩ 0 * 128 ≤ (i 0 : Nat) ∧ (i 0 : Nat) < win1_4.index ⟨(i 0 : Nat) / 128, ht⟩ 0 * 128 + 128
    rw [e0]; show (i 0 : Nat) / 128 * 128 ≤ (i 0 : Nat) ∧ (i 0 : Nat) < (i 0 : Nat) / 128 * 128 + 128; omega
  | ⟨1, _⟩ =>
    show win1_4.index ⟨(i 0 : Nat) / 128, ht⟩ 1 * 16 ≤ (i 1 : Nat) ∧ (i 1 : Nat) < win1_4.index ⟨(i 0 : Nat) / 128, ht⟩ 1 * 16 + 16
    rw [e1]; omega
  | ⟨2, _⟩ =>
    show win1_4.index ⟨(i 0 : Nat) / 128, ht⟩ 2 * 1024 ≤ (i 2 : Nat) ∧ (i 2 : Nat) < win1_4.index ⟨(i 0 : Nat) / 128, ht⟩ 2 * 1024 + 1024
    rw [e2]; omega

end Cert.KernelIdeal.OutRegion

end
-- ==== Proof.VarRegion.lean ====
/-
  The first region's value: the per-channel power statistic, accumulated tile by tile.

  The region visits sixteen tiles of 128 positions. For tile T it reads rows 128·T … 128·T + 127 of the input x[t, b, c]
  and of the token weights v[t, b]. Every token (i, b) of the tile is scaled by the reciprocal root of its mean square over
  the 1024 channels plus a small constant; the tile's contribution to channel c is
      ∑ i < 128, ∑ b < 16, (scaled entry)² · v.
  One buffer of 1024 channels is carried across the tiles: the first tile stores zeros into it and then adds its
  contribution, every later tile adds its contribution to what the tile before left, and after the last tile the buffer
  is copied out once. Over the extended reals 0 + a = a, so what is copied out is, at channel c, the sum over the sixteen
  tiles of their contributions: the statistic summed tile by tile.

  The steps: the tile's arithmetic read at one channel (three sums over one axis each, two layout changes that add a unit
  axis and spread it over the channels); what the two control cases of the body leave in the buffer; the blocks read in
  the arrays' own coordinates (block index times block extent plus the coordinate inside the block); the induction over
  the tiles; the one copy-out, whose block is the whole array.
-/
import proofs.«143038_j2413771621060_1_alg».proof.Proof.Gen.KernelIdeal.Frame
import proofs.«143038_j2413771621060_1_alg».proof.Proof.Spec
import Idealize.ShloMosaic.Lib.Pipeline.Value
import Idealize.ShloMosaic.Lib.ValueLayout

noncomputable section

open scoped BigOperators

namespace Cert.KernelIdeal.VarRegion

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## One tile's arithmetic, read at a channel -/

/-- Putting the channel back on the reduced last axis of a block index. -/
theorem lift_chan (h : S128x16x1024.Reduces [2] S128x16) (i : Fin 128) (b : Fin 16) (k : Fin 1024) :
    h.lift (ix2 i b) k = ix3 i b k := by
  funext a; apply Fin.ext
  fin_cases a <;> rfl

/-- Putting the sequence back on the reduced middle axis. -/
theorem lift_seq (h : S128x16x1024.Reduces [1] S128x1024) (i : Fin 128) (r : Fin 1024) (b : Fin 16) :
    h.lift (ix2 i r) b = ix3 i b r := by
  funext a; apply Fin.ext
  fin_cases a <;> rfl

/-- Putting the position back on the reduced leading axis. -/
theorem lift_pos (h : S128x1024.Reduces [0] S1024) (r : Fin 1024) (i : Fin 128) :
    h.lift (ix1 r) i = ix2 i r := by
  funext a; apply Fin.ext
  fin_cases a <;> rfl

section sums
variable (hφ : FKind.Formats .f32) (z : BitVec FTy.f32.bits) (hacc : z = FKind.add.neutral .f32 hφ)

/-- The sum over the channels of a block, at a token. -/
theorem sum_chan (x : FVec Ideal S128x16x1024 .f32) (h : S128x16x1024.Reduces [2] S128x16) (i : Fin 128) (b : Fin 16) :
    multiReduction .add [2] S128x16 x z h hφ hacc (ix2 i b) = ∑ k : Fin 1024, x (ix3 i b k) := by
  refine (Ideal.multiReduction_add_single x _ h hφ hacc (ix2 i b)).trans ?_
  exact Finset.sum_congr rfl fun k _ => congrArg x (lift_chan h i b k)

/-- The sum over the sequences of a block, at a position and a channel. -/
theorem sum_seq (x : FVec Ideal S128x16x1024 .f32) (h : S128x16x1024.Reduces [1] S128x1024) (i : Fin 128) (r : Fin 1024) :
    multiReduction .add [1] S128x1024 x z h hφ hacc (ix2 i r) = ∑ b : Fin 16, x (ix3 i b r) := by
  refine (Ideal.multiReduction_add_single x _ h hφ hacc (ix2 i r)).trans ?_
  exact Finset.sum_congr rfl fun b _ => congrArg x (lift_seq h i r b)

/-- The sum over the positions, at a channel. -/
theorem sum_pos (x : FVec Ideal S128x1024 .f32) (h : S128x1024.Reduces [0] S1024) (r : Fin 1024) :
    multiReduction .add [0] S1024 x z h hφ hacc (ix1 r) = ∑ i : Fin 128, x (ix2 i r) := by
  refine (Ideal.multiReduction_add_single x _ h hφ hacc (ix1 r)).trans ?_
  exact Finset.sum_congr rfl fun i _ => congrArg x (lift_pos h r i)

end sums

/-- A per-token array given a trailing unit axis reads the same token. -/
theorem unit_axis_apply {α : Type} (x : S128x16.Idx → α) (h : S128x16.ShapeCasts S128x16x1) (i : Fin 128) (b : Fin 16) (u : Fin 1) :
    shapeCast S128x16x1 x h (ix3 i b u) = x (ix2 i b) :=
  shapeCast_apply x h _ _ (by
    have hu : u.val = 0 := by omega
    rw [Shape.rowMajor_val_three, Shape.rowMajor_val_two]
    show i.val * 16 + b.val = (i.val * 16 + b.val) * 1 + u.val
    omega)

/-- A per-token array spread over the channels reads the token's one entry. -/
theorem spread_apply {α : Type} (x : S128x16x1.Idx → α) (h : S128x16x1.Broadcasts S128x16x1024) (i : Fin 128) (b : Fin 16) (r : Fin 1024) :
    broadcastTo S128x16x1024 x h (ix3 i b r) = x (ix3 i b (0 : Fin 1)) := by
  refine broadcastTo_apply x h (ix3 i b r) (ix3 i b (0 : Fin 1)) fun ax => ?_
  match ax with
  | ⟨0, _⟩ => rfl
  | ⟨1, _⟩ => rfl
  | ⟨2, _⟩ => rfl

/-- The reciprocal root a tile applies to token (i, b) of its block. -/
def blockScale (x0 : Vec Ideal S128x16x1024 .f32) (i : Fin 128) (b : Fin 16) : EReal :=
  Ideal.rsqrt (Ideal.div (∑ k : Fin 1024, x0 (ix3 i b k) * x0 (ix3 i b k)) Norm.chan + Norm.eps)

/-- The block's reciprocal root as the tile computes it: the mean square over the channels, the constant added, the
    reciprocal root taken, all on a trailing unit axis. -/
theorem scale_apply (x0 : Vec Ideal S128x16x1024 .f32) (h : S128x16x1024.Reduces [2] S128x16) (hφ : FKind.Formats .f32)
    (z : BitVec FTy.f32.bits) (hacc : z = FKind.add.neutral .f32 hφ) (hsc : S128x16.ShapeCasts S128x16x1)
    (i : Fin 128) (b : Fin 16) (u : Fin 1) :
    rsqrt (F := Ideal) (addf (divf (shapeCast S128x16x1 (multiReduction (F := Ideal) .add [2] S128x16 (mulf x0 x0) z h hφ hacc) hsc)
        (broadcast S128x16x1 (FloatOps.ofBits .f32 0x44800000#32)))
      (broadcast S128x16x1 (FloatOps.ofBits .f32 0x3727C5AC#32))) (ix3 i b u) = blockScale x0 i b := by
  have e : shapeCast S128x16x1 (multiReduction (F := Ideal) .add [2] S128x16 (mulf x0 x0) z h hφ hacc) hsc (ix3 i b u)
      = ∑ k : Fin 1024, x0 (ix3 i b k) * x0 (ix3 i b k) :=
    (unit_axis_apply _ hsc i b u).trans (sum_chan hφ z hacc (mulf x0 x0) h i b)
  show Ideal.rsqrt (Ideal.div (shapeCast S128x16x1 (multiReduction (F := Ideal) .add [2] S128x16 (mulf x0 x0) z h hφ hacc) hsc (ix3 i b u))
    Norm.chan + Norm.eps) = _
  rw [e]
  rfl

/-- What a tile adds to channel r: the weighted squares of its block's scaled entries. -/
def blockPower (x0 : Vec Ideal S128x16x1024 .f32) (x1 : Vec Ideal S128x16 .f32) (r : Fin 1024) : EReal :=
  ∑ i : Fin 128, ∑ b : Fin 16,
    (x0 (ix3 i b r) * blockScale x0 i b) * (x0 (ix3 i b r) * blockScale x0 i b) * x1 (ix2 i b)

/-- The update a tile stores: the running contents plus the tile's contribution. -/
theorem pay2_apply (x0 : Vec Ideal S128x16x1024 .f32) (x1 : Vec Ideal S128x16 .f32) (acc : Vec Ideal S1024 .f32) (r : Fin 1024) :
    k0_pay2 x0 x1 acc (ix1 r) = acc (ix1 r) + blockPower x0 x1 r := by
  unfold k0_pay2 blockPower
  refine congrArg₂ (· + ·) (congrFun (shapeCast_self acc _) (ix1 r)) ?_
  refine (sum_pos _ _ _ _ _ r).trans ?_
  refine Finset.sum_congr rfl fun i _ => ?_
  refine (sum_seq _ _ _ _ _ i r).trans ?_
  refine Finset.sum_congr rfl fun b _ => ?_
  rw [mulf_apply, mulf_apply, mulf_apply, spread_apply, spread_apply, unit_axis_apply]
  have es := scale_apply x0 reduces_S128x16x1024_S128x16 (.inl rfl) 0x00000000#32 rfl shapeCasts_S128x16_S128x16x1 i b (0 : Fin 1)
  exact congrArg₂ (· * ·) (congrArg₂ (· * ·) (congrArg (x0 (ix3 i b r) * ·) es) (congrArg (x0 (ix3 i b r) * ·) es))
    (congrFun (shapeCast_self x1 _) (ix2 i b))

/-- The reset a tile stores first: zero at every channel. -/
theorem pay1_apply (r : Fin 1024) : k0_pay1 (F := Ideal) (ix1 r) = 0 := by
  show Ideal.ofBits .f32 0x00000000#32 = 0
  exact Ideal.ofBits_zero_f32

/-! ## What each control case leaves in the accumulator's buffer -/

section pieces
variable {F : FTy → Type} [FloatOps F]

-- An access to a whole buffer starts at the origin: zero in every coordinate (ranks one, two, three).
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first tile the body leaves the update of what the buffer held. -/
theorem out_B (c : Dev nD) (i : grid0.Coords) (a1 : Memref sig .tc .vmem S128x16x1024 .f32) (h1 : a1.IsWhole)
    (a2 : Memref sig .tc .vmem S128x16 .f32) (h2 : a2.IsWhole) (a3 : Memref sig .tc .vmem S1024 .f32) (h3 : a3.IsWhole)
    (hc : ¬cond0_0 i) (x0 : Vec F S128x16x1024 .f32) (x1 : Vec F S128x16 .f32) (xo : Vec F S1024 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz1]
  simp only [View.readAt_eq_ld, h1.read_unread, h2.read_unread, h3.read_unread, View.ld_unit_zero (S := S128x16x1024) hz3,
    View.ld_unit_zero (S := S128x16) hz2, View.ld_unit_zero (S := S1024) hz1]

/-- At the first tile the body stores zeros, reads them back, and leaves their update. -/
theorem out_A (c : Dev nD) (i : grid0.Coords) (a1 : Memref sig .tc .vmem S128x16x1024 .f32) (h1 : a1.IsWhole)
    (a2 : Memref sig .tc .vmem S128x16 .f32) (h2 : a2.IsWhole) (a3 : Memref sig .tc .vmem S1024 .f32) (h3 : a3.IsWhole)
    (hc : cond0_0 i) (x0 : Vec F S128x16x1024 .f32) (x1 : Vec F S128x16 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1024) hz1, View.readCov_unit_zero (S := S1024) _ hz1]
  simp only [View.readAt_eq_ld, h1.read_unread, h2.read_unread, h3.read_unread, View.ld_unit_zero (S := S128x16x1024) hz3,
    View.ld_unit_zero (S := S128x16) hz2, View.ld_unit_zero (S := S1024) hz1]

end pieces

/-! ## The blocks a tile reads, in the arrays' own coordinates -/

variable (V : (c : Dev nD) → (b : Ref sig .tc) → Buf (Elt Ideal) ((c : Thread nD τ).loc b))

/-- The input array and the token weights as the region finds them. -/
abbrev xarr (c : Dev nD) : Norm.SX.Idx → EReal := V c main_arg0
abbrev warr (c : Dev nD) : Norm.SV.Idx → EReal := V c main_v2

/-- Tile t's block of the input and of the token weights. -/
abbrev xblk (c : Dev nD) (t : Fin cfg0.N) : Vec Ideal S128x16x1024 .f32 := iblk0 V c 0 t
abbrev wblk (c : Dev nD) (t : Fin cfg0.N) : Vec Ideal S128x16 .f32 := iblk0 V c 1 t

theorem tile_lt (t : Fin cfg0.N) : t.val < 16 := lt_of_lt_of_eq t.isLt N_0

/-- The input window moves along the positions only: block (t, 0, 0). -/
theorem xindex : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The weight window likewise: block (t, 0). -/
theorem windex : ∀ t : Fin cfg0.N, win0_1.index t 0 = t.val ∧ win0_1.index t 1 = 0 :=
  (by decide +kernel : ∀ t : Fin grid0.N, win0_1.index t 0 = t.val ∧ win0_1.index t 1 = 0)

/-- Entry (i, b, k) of tile t's input block is the array's entry at position 128·t + i. -/
theorem xblk_apply (c : Dev nD) (t : Fin cfg0.N) (i : Fin 128) (b : Fin 16) (k : Fin 1024) :
    xblk V c t (ix3 i b k) = xarr V c (ix3 (Norm.tok ⟨t.val, tile_lt t⟩ i) b k) := by
  obtain ⟨e0, e1, e2⟩ := xindex t
  unfold xblk iblk0
  rw [View.read_apply]
  show V c main_arg0 _ = V c main_arg0 _
  congr 1
  funext a
  apply Fin.ext
  match a with
  | ⟨0, _⟩ => show win0_0.index t 0 * 128 + 1 * i.val = 128 * t.val + i.val; rw [e0]; omega
  | ⟨1, _⟩ => show win0_0.index t 1 * 16 + 1 * b.val = b.val; rw [e1]; omega
  | ⟨2, _⟩ => show win0_0.index t 2 * 1024 + 1 * k.val = k.val; rw [e2]; omega

/-- Entry (i, b) of tile t's weight block is the weight of position 128·t + i. -/
theorem wblk_apply (c : Dev nD) (t : Fin cfg0.N) (i : Fin 128) (b : Fin 16) :
    wblk V c t (ix2 i b) = warr V c (ix2 (Norm.tok ⟨t.val, tile_lt t⟩ i) b) := by
  obtain ⟨e0, e1⟩ := windex t
  unfold wblk iblk0
  rw [View.read_apply]
  show V c main_v2 _ = V c main_v2 _
  congr 1
  funext a
  apply Fin.ext
  match a with
  | ⟨0, _⟩ => show win0_1.index t 0 * 128 + 1 * i.val = 128 * t.val + i.val; rw [e0]; omega
  | ⟨1, _⟩ => show win0_1.index t 1 * 16 + 1 * b.val = b.val; rw [e1]; omega

/-! ## The accumulator after each tile -/

/-- A tile's contribution when its blocks are rows 128·T + i of arrays x and w: the weighted squares of the scaled
    entries of those rows. The block's mean squares are the rows' mean squares, so the reciprocal roots agree. -/
theorem blockPower_rows (x0 : Vec Ideal S128x16x1024 .f32) (x1 : Vec Ideal S128x16 .f32) (x : Norm.SX.Idx → EReal)
    (w : Norm.SV.Idx → EReal) (T : Fin 16) (hx : ∀ i b k, x0 (ix3 i b k) = x (ix3 (Norm.tok T i) b k))
    (hw : ∀ i b, x1 (ix2 i b) = w (ix2 (Norm.tok T i) b)) (r : Fin 1024) :
    blockPower x0 x1 r = ∑ i : Fin 128, ∑ b : Fin 16,
      Norm.scaledK x (Norm.tok T i) b r * Norm.scaledK x (Norm.tok T i) b r * w (ix2 (Norm.tok T i) b) := by
  unfold blockPower blockScale Norm.scaledK Norm.denom
  simp only [hx, hw]

/-- Tile T's contribution to channel r, over the arrays the region finds. -/
def tilePower (c : Dev nD) (r : Fin 1024) (T : Fin 16) : EReal :=
  ∑ i : Fin 128, ∑ b : Fin 16,
    Norm.scaledK (xarr V c) (Norm.tok T i) b r * Norm.scaledK (xarr V c) (Norm.tok T i) b r * warr V c (ix2 (Norm.tok T i) b)

/-- The same by the tile's number, nothing beyond the sixteenth. -/
def tileN (c : Dev nD) (r : Fin 1024) (T : ℕ) : EReal := if h : T < 16 then tilePower V c r ⟨T, h⟩ else 0

/-- What tile t computes from its two blocks is its contribution over the arrays. -/
theorem blockPower_eq (c : Dev nD) (t : Fin cfg0.N) (r : Fin 1024) :
    blockPower (xblk V c t) (wblk V c t) r = tileN V c r t.val := by
  unfold tileN
  rw [dif_pos (tile_lt t)]
  exact blockPower_rows (xblk V c t) (wblk V c t) (xarr V c) (warr V c) ⟨t.val, tile_lt t⟩ (xblk_apply V c t) (wblk_apply V c t) r

/-- After tile n the accumulator holds, at channel r, the contributions of tiles 0 … n: the first tile starts from the
    zeros it stored (0 + a = a), every later tile adds to what the tile before left. -/
theorem outsAt_eq (c : Dev nD) : ∀ (n : ℕ) (hn : n < cfg0.N) (r : Fin 1024),
    outsAt0 V c n hn (ix1 r) = ∑ T ∈ Finset.range (n + 1), tileN V c r T
  | 0, hn, r => by
    rw [outsAt0_A V c ⟨0, hn⟩ rfl]
    refine (congrFun (out_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr rfl) (xblk V c ⟨0, hn⟩) (wblk V c ⟨0, hn⟩)) (ix1 r)).trans ?_
    refine (pay2_apply (xblk V c ⟨0, hn⟩) (wblk V c ⟨0, hn⟩) (k0_pay1 (F := Ideal)) r).trans ?_
    rw [pay1_apply, zero_add, Finset.sum_range_one]
    exact blockPower_eq V c ⟨0, hn⟩ r
  | n + 1, hn, r => by
    have hN : cfg0.N = 16 := N_0
    have hB : ¬(⟨n + 1, hn⟩ : Fin cfg0.N).val % 16 = 0 := by dsimp only; omega
    rw [outsAt0_B V c ⟨n + 1, hn⟩ hB]
    dsimp only
    refine (congrFun (out_B (F := Ideal) c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (xblk V c ⟨n + 1, hn⟩) (wblk V c ⟨n + 1, hn⟩) (outsAt0 V c n (Nat.lt_of_succ_lt hn))) (ix1 r)).trans ?_
    refine (pay2_apply (xblk V c ⟨n + 1, hn⟩) (wblk V c ⟨n + 1, hn⟩) (outsAt0 V c n (Nat.lt_of_succ_lt hn)) r).trans ?_
    rw [Finset.sum_range_succ _ (n + 1)]
    exact congrArg₂ (· + ·) (outsAt_eq c n (Nat.lt_of_succ_lt hn) r) (blockPower_eq V c ⟨n + 1, hn⟩ r)

/-! ## The array the region leaves -/

/-- The statistic summed tile by tile, at every channel. -/
abbrev result (c : Dev nD) : Buf (Elt Ideal) ((c : Thread nD τ).loc main_v4) :=
  fun k : Norm.SC.Idx => Norm.powerTiled (Norm.scaledK (V c main_arg0)) (fun t b => V c main_v2 (ix2 t b)) (k 0)

/-- After the last tile the accumulator holds the tiled statistic. -/
theorem outs_last (c : Dev nD) : outsAt0 V c t0_15.val t0_15.isLt = result V c := by
  funext k
  obtain ⟨r, rfl⟩ : ∃ r, k = ix1 r := ⟨k 0, eq_ix1 k⟩
  refine (outsAt_eq V c 15 t0_15.isLt r).trans ?_
  rw [Finset.sum_range]
  exact Finset.sum_congr rfl fun T _ => dif_pos T.isLt

/-- The buffer is written back once, after the last tile; its block is the whole array. -/
theorem flushed_eq (c : Dev nD) (t : Fin cfg0.N) (hf : (cfg0.win 2).flush t = true) :
    (dat0 V c).flushed 2 t = ((cfg0.win 2).blk t).view.read (Elt Ideal) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outs_last]
  have hz' : (fun a => win0_2.index t0_15 a * main_v4.ty.shape.size a) = fun _ => 0 := funext fun a => by fin_cases a <;> decide
  exact (Memref.read_access_unit_zero (Elt Ideal) main_v4 hz' (fun a => by rw [congrFun hz' a]; simp) (result V c)).symm

/-- What the region leaves in its output array: the power statistic summed tile by tile, at every channel. -/
theorem final (c : Dev nD) :
    (dat0 (F := Ideal) V c).arrAt 2 cfg0.N
      = fun k : Norm.SC.Idx => Norm.powerTiled (Norm.scaledK (V c main_arg0)) (fun t b => V c main_v2 (ix2 t b)) (k 0) :=
  (dat0 V c).arrAt_eq_of_cover 2 (result V c) (flushed_eq V c) fun i =>
    ⟨t0_15, (flush0_2 t0_15).mpr rfl, by
      show i ∈ ((View.whole main_v4).slice (win0_2.rect t0_15)).set
      rw [View.set_slice_whole, Rect.mem_set_unit]
      intro a
      have h0 : (i 0 : Nat) < 1024 := (i 0).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1024 from by decide +kernel]
        omega⟩

end Cert.KernelIdeal.VarRegion

end
-- ==== Proof.Count.lean ====
/-
  Counting the set bits of a grid of token bits, three ways.

  A grid v[t, b] of single bits (2048 positions, 16 sequences) has bitCount v set bits, a natural number at most
  2048 · 16 = 32768. Summing the bits widened to 32-bit words cannot wrap, so the word sum has that value, read signed
  or unsigned; summing the bits converted to extended reals gives the same number; and the specification's count of
  valid tokens is the same number when v is the negated, transposed mask.
-/
import proofs.«143038_j2413771621060_1_alg».proof.Proof.Spec
import Idealize.ShloMosaic.Lib.StableHlo.Predicate

noncomputable section

open scoped BigOperators

namespace Cert.Norm

open Idealize.ShloMosaic Idealize.ShloMosaic.ValueIdx Idealize.ShloMosaic.StableHlo.Predicate

/-- A single bit is worth at most one. -/
theorem bit_toNat_le_one (b : BitVec 1) : b.toNat ≤ 1 := by
  rcases BitVec.eq_zero_or_eq_one b with rfl | rfl <;> decide

/-- Widening a single bit to a word keeps its value. -/
theorem bit_setWidth_toNat (b : BitVec 1) : (b.setWidth 32).toNat = b.toNat := by
  rcases BitVec.eq_zero_or_eq_one b with rfl | rfl <;> rfl

/-- There are at most 2048 · 16 set bits. -/
theorem bitCount_le (v : SV.Idx → BitVec 1) : bitCount v ≤ 32768 := by
  unfold bitCount
  calc ∑ t : Fin 2048, ∑ b : Fin 16, (v (ix2 t b)).toNat
      ≤ ∑ _t : Fin 2048, ∑ _b : Fin 16, 1 :=
        Finset.sum_le_sum fun t _ => Finset.sum_le_sum fun b _ => bit_toNat_le_one _
    _ = 32768 := by simp

/-- The two casts, natural to real to extended real, pass through a finite sum. -/
theorem coe_natSum {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- The bit count as an extended real is the double sum of the bits' values as extended reals. -/
theorem bitCount_coe (v : SV.Idx → BitVec 1) :
    (((bitCount v : ℕ) : ℝ) : EReal) = ∑ t : Fin 2048, ∑ b : Fin 16, (((v (ix2 t b)).toNat : ℝ) : EReal) := by
  unfold bitCount
  rw [coe_natSum]
  exact Finset.sum_congr rfl fun t _ => coe_natSum _ _

/-- The word sum of the widened bits over both axes has the bit count as its value. -/
theorem tokenCount_toNat (v : SV.Idx → BitVec 1) (hw : 1 < 32) (h : SV.ReducesTo [0, 1] S0) (hu : 0 < S0.numel) :
    (Host.reduce IntOp.addi (extui 32 v hw) (constantI S0 32 0#32) h hu ix0).toNat = bitCount v := by
  classical
  rw [Host.reduce_eq_fold]
  -- the result has a single index, so every source index drops to it
  have hall : (Finset.univ.filter fun i : SV.Idx => h.drop i = ix0) = Finset.univ :=
    Finset.filter_true_of_mem fun i _ => funext fun a => a.elim0
  have hsum : ∑ i ∈ (Finset.univ : Finset SV.Idx), (extui 32 v hw i).toNat = bitCount v := by
    refine (Finset.sum_congr rfl fun i _ => bit_setWidth_toNat (v i)).trans ?_
    exact sum_idx2 (fun i => (v i).toNat)
  show (Finset.fold IntOp.addi 0#32 (extui 32 v hw) (Finset.univ.filter fun i : SV.Idx => h.drop i = ix0)).toNat = _
  rw [hall, toNat_fold_addi _ _ (by rw [hsum]; have := bitCount_le v; omega), hsum]

/-- Read as a signed word and converted to a float, the word sum is the bit count. -/
theorem tokenCount_sitofp (v : SV.Idx → BitVec 1) (hw : 1 < 32) (h : SV.ReducesTo [0, 1] S0) (hu : 0 < S0.numel) :
    (sitofp (F := Ideal) .f32 (Host.reduce IntOp.addi (extui 32 v hw) (constantI S0 32 0#32) h hu)) ix0
      = (((bitCount v : ℕ) : ℝ) : EReal) := by
  have hn := tokenCount_toNat v hw h hu
  have hb := bitCount_le v
  show ((((Host.reduce IntOp.addi (extui 32 v hw) (constantI S0 32 0#32) h hu ix0).toInt : ℤ) : ℝ) : EReal) = _
  rw [toInt_eq_toNat_of_lt (by rw [hn]; omega), hn, Int.cast_natCast]

/-- If the word sum compares greater than zero as a signed word, some bit is set. -/
theorem tokenCount_sgt (v : SV.Idx → BitVec 1) (hw : 1 < 32) (h : SV.ReducesTo [0, 1] S0) (hu : 0 < S0.numel)
    (hp : cmpi .sgt (Host.reduce IntOp.addi (extui 32 v hw) (constantI S0 32 0#32) h hu) (constantI S0 32 0#32) ix0 = 1#1) :
    0 < bitCount v := by
  have hn := tokenCount_toNat v hw h hu
  have hb := bitCount_le v
  have hp' : IntOp.cmpi .sgt (Host.reduce IntOp.addi (extui 32 v hw) (constantI S0 32 0#32) h hu ix0) 0#32 = 1#1 := hp
  have h0 := (sgt_iff_toNat (by rw [hn]; omega) (by decide)).1 hp'
  rw [hn] at h0
  exact h0

/-- The float sum of the bits converted one by one, from zero, is the bit count. -/
theorem hostCount (v : SV.Idx → BitVec 1) (h : SV.ReducesTo [0, 1] S0) (hu : 0 < S0.numel) :
    Host.reduceAdd (F := Ideal) (uitofp .f32 v) (constant S0 .f32 0x00000000#32) h hu ix0
      = (((bitCount v : ℕ) : ℝ) : EReal) := by
  show Ideal.hostReduceAdd h (uitofp (F := Ideal) .f32 v) (Ideal.ofBits .f32 0x00000000#32) ix0 = _
  rw [Ideal.hostReduceAdd_total h (fun b => b.elim0), Ideal.ofBits_zero_f32, zero_add, sum_idx2, bitCount_coe]
  rfl

/-- The specification's count of valid tokens is the bit count of the negated, transposed mask. -/
theorem count_eq (mask : SM.Idx → BitVec 1) (v : SV.Idx → BitVec 1) (hv : ∀ t b, v (ix2 t b) = ~~~ mask (ix2 b t)) :
    count mask = (((bitCount v : ℕ) : ℝ) : EReal) := by
  rw [bitCount_coe]
  unfold count validAt
  exact Finset.sum_congr rfl fun t _ => Finset.sum_congr rfl fun b _ => by rw [hv t b]

end Cert.Norm

end
-- ==== Proof.KernelValue.lean ====
/-
  What the kernel's result array holds after the run, as a formula of the launched arguments.

  Before the first region the host code negates and transposes the padding mask into token bits, converts them to
  floats (the token weights) and sums them (the count). The first region leaves in its result the tiled power
  statistic of the launched input under those weights; the host code divides it by the count: the variance. The second
  region reads the launched input, weight and bias and that variance, and every block of its result is the kernel's
  formula of them. Read back through the boundaries, the result array is that formula of the launched arguments.
-/
import proofs.«143038_j2413771621060_1_alg».proof.Proof.KernelRun
import proofs.«143038_j2413771621060_1_alg».proof.Proof.OutRegion
import proofs.«143038_j2413771621060_1_alg».proof.Proof.VarRegion
import proofs.«143038_j2413771621060_1_alg».proof.Proof.Spec
import proofs.«143038_j2413771621060_1_alg».proof.Proof.Count
import Idealize.ShloMosaic.Lib.StableHlo.Run
import Idealize.ShloMosaic.Lib.Pipeline.Value

set_option maxRecDepth 16384
noncomputable section
open scoped BigOperators

namespace Cert.KernelIdeal.Value
open Cert.KernelIdeal Cert.KernelIdeal.Gen Idealize.ShloMosaic Idealize.ShloMosaic.TcCoe Idealize.SL.Sem Idealize.ShloMosaic.ValueIdx Idealize.ShloMosaic.StableHlo
open Cert

variable (m : (ℓ : Loc nD τ sig) → Buf (Elt Ideal) ℓ) (ρ : Dev nD → PrngReg)

/-- The arguments as launched, at their literal types. -/
abbrev xin (c : Dev nD) : S2048x16x1024.Idx → EReal := m ((c.tc : Thread nD τ).loc main_arg0)
abbrev win (c : Dev nD) : S1024.Idx → EReal := m ((c.tc : Thread nD τ).loc main_arg1)
abbrev bin (c : Dev nD) : S1024.Idx → EReal := m ((c.tc : Thread nD τ).loc main_arg2)
abbrev maskin (c : Dev nD) : S16x2048.Idx → BitVec 1 := m ((c.tc : Thread nD τ).loc main_arg3)

/-- The token bits the host code forms before the first region: the mask negated and transposed. -/
abbrev tokenBits (c : Dev nD) : S2048x16.Idx → BitVec 1 :=
  transpose S2048x16 [1, 0] (noti (maskin m c)) transposes_S16x2048_S2048x16_1_0

/-- Token bit (t, b) is the negation of mask bit (b, t). -/
theorem tokenBits_apply (c : Dev nD) (t : Fin 2048) (b : Fin 16) :
    tokenBits m c (ix2 t b) = ~~~ maskin m c (ix2 b t) :=
  transpose_apply [1, 0] (noti (maskin m c)) transposes_S16x2048_S2048x16_1_0 (ix2 t b) (ix2 b t) (fun a => match a with
    | ⟨0, _⟩ => rfl
    | ⟨1, _⟩ => rfl)

/-! ## The host stretches read back -/

theorem entry0_x (c : Dev nD) : (V1 m ρ c main_arg0 : S2048x16x1024.Idx → EReal) = xin m c := by
  show StableHlo.after hostOps0 (W0 m ρ c) (Proc.devRef .tc main_arg0) = _
  after_results

theorem entry0_tokens (c : Dev nD) : (V1 m ρ c main_v2 : S2048x16.Idx → EReal) = uitofp (F := Ideal) .f32 (tokenBits m c) := by
  show StableHlo.after hostOps0 (W0 m ρ c) (Proc.devRef .tc main_v2) = _
  after_results

theorem entry0_count (c : Dev nD) : (W1 m ρ c (Proc.devRef .tc main_v3) : S_.Idx → EReal)
    = Host.reduceAdd (F := Ideal) (uitofp (F := Ideal) .f32 (tokenBits m c)) (constant S_ .f32 0x00000000#32) reducesTo_S2048x16_S_d0_1 h_S_ := by
  show StableHlo.after hostOps0 (W0 m ρ c) (Proc.devRef .tc main_v3) = _
  after_results

/-- What the first region leaves in its result array, and the float count, at the second stretch. -/
abbrev powArr (c : Dev nD) : FVec Ideal S1024 .f32 := W2 m ρ c (Proc.devRef .tc main_v4)
abbrev cntArr (c : Dev nD) : FVec Ideal S_ .f32 := W2 m ρ c (Proc.devRef .tc main_v3)

theorem entry1_var (c : Dev nD) : (V3 m ρ c main_v6 : S1024.Idx → EReal)
    = Host.divf (F := Ideal) (powArr m ρ c) (broadcastInDim S1024 ![] bcast_S_S1024 (cntArr m ρ c)) := by
  show StableHlo.after hostOps1 (W2 m ρ c) (Proc.devRef .tc main_v6) = _
  after_results

/-- A per-channel vector over a broadcast scalar, at a channel. -/
theorem divf_bcast_apply (A : FVec Ideal S1024 .f32) (s : FVec Ideal S_ .f32) (r : Fin 1024) :
    Host.divf (F := Ideal) A (broadcastInDim S1024 ![] bcast_S_S1024 s) (ix1 r) = Ideal.div (A (ix1 r)) (s ix0) := by
  show Ideal.div (A (ix1 r)) (broadcastInDim S1024 ![] bcast_S_S1024 s (ix1 r)) = _
  rw [broadcastInDim_apply _ bcast_S_S1024 s (ix1 r) ix0 (fun a => a.elim0)]

/-- The second region finds the arguments as launched. -/
theorem entry1_x (c : Dev nD) : (V3 m ρ c main_arg0 : S2048x16x1024.Idx → EReal) = xin m c :=
  ((W4_arr m ρ c 0).trans (((dat1 (V3 m ρ) c).arrAt_in 0 rfl _).trans (A_eq1 (V3 m ρ) c 0))).symm.trans (W4_main_arg0 m ρ c)
theorem entry1_w (c : Dev nD) : (V3 m ρ c main_arg1 : S1024.Idx → EReal) = win m c :=
  ((W4_arr m ρ c 1).trans (((dat1 (V3 m ρ) c).arrAt_in 1 rfl _).trans (A_eq1 (V3 m ρ) c 1))).symm.trans (W4_main_arg1 m ρ c)
theorem entry1_b (c : Dev nD) : (V3 m ρ c main_arg2 : S1024.Idx → EReal) = bin m c :=
  ((W4_arr m ρ c 2).trans (((dat1 (V3 m ρ) c).arrAt_in 2 rfl _).trans (A_eq1 (V3 m ρ) c 2))).symm.trans (W4_main_arg2 m ρ c)

/-! ## The variance the second region is given -/

/-- A token's weight as the first region reads it is the specification's. -/
theorem token_weight (c : Dev nD) (t : Fin 2048) (b : Fin 16) :
    (V1 m ρ c main_v2 : S2048x16.Idx → EReal) (ix2 t b) = Norm.validAt (maskin m c) t b := by
  rw [entry0_tokens]
  show (((tokenBits m c (ix2 t b)).toNat : ℝ) : EReal) = _
  rw [tokenBits_apply]
  rfl

/-- The float count of the valid tokens is the specification's count. -/
theorem float_count (c : Dev nD) : cntArr m ρ c ix0 = Norm.count (maskin m c) := by
  have e : cntArr m ρ c = Host.reduceAdd (F := Ideal) (uitofp (F := Ideal) .f32 (tokenBits m c)) (constant S_ .f32 0x00000000#32)
      reducesTo_S2048x16_S_d0_1 h_S_ :=
    (W2_of_ne m ρ c main_v3 (by decide)).trans (entry0_count m ρ c)
  rw [e, Norm.count_eq (maskin m c) (tokenBits m c) (tokenBits_apply m c)]
  exact Norm.hostCount (tokenBits m c) reducesTo_S2048x16_S_d0_1 h_S_

/-- What the first region leaves in its result array: the tiled power statistic of the launched input. -/
theorem power_array (c : Dev nD) : powArr m ρ c
    = fun k : Norm.SC.Idx => Norm.powerTiled (Norm.scaledK (xin m c)) (Norm.validAt (maskin m c)) (k 0) :=
  (W2_arr m ρ c 2).trans ((VarRegion.final (V1 m ρ) c).trans
    (congrArg₂ (fun (X : Norm.SX.Idx → EReal) (v : Fin 2048 → Fin 16 → EReal) => fun k : Norm.SC.Idx => Norm.powerTiled (Norm.scaledK X) v (k 0))
      (entry0_x m ρ c) (funext fun t => funext fun b => token_weight m ρ c t b)))

/-- What the first region leaves, over the count: the kernel's variance. -/
theorem variance (c : Dev nD) : (V3 m ρ c main_v6 : S1024.Idx → EReal)
    = Norm.varK (xin m c) (Norm.validAt (maskin m c)) (Norm.count (maskin m c)) := by
  rw [entry1_var]
  funext k
  obtain ⟨r, rfl⟩ : ∃ r : Fin 1024, k = ix1 r := ⟨k 0, eq_ix1 k⟩
  rw [divf_bcast_apply, float_count, power_array]
  rfl

/-! ## The result array -/

/-- The result array after the run is the kernel's formula of the launched arguments. -/
theorem result (c : Dev nD) : (W4 m ρ c (Proc.devRef .tc main_v7) : S2048x16x1024.Idx → EReal)
    = Norm.outK (xin m c) (win m c) (bin m c) (Norm.varK (xin m c) (Norm.validAt (maskin m c)) (Norm.count (maskin m c))) := by
  rw [show (W4 m ρ c (Proc.devRef .tc main_v7) : S2048x16x1024.Idx → EReal) = (dat1 (V3 m ρ) c).arrAt 4 cfg1.N from W4_arr m ρ c 4,
    OutRegion.final (V3 m ρ) c, entry1_x, entry1_w, entry1_b, variance]

end Cert.KernelIdeal.Value

end
-- ==== Proof.RefValue.lean ====
import proofs.«143038_j2413771621060_1_alg».proof.Proof.Gen.ReferenceIdeal.Run
import proofs.«143038_j2413771621060_1_alg».proof.Proof.Gen.ReferenceIdeal.Read
import proofs.«143038_j2413771621060_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx
open Cert.Norm

/-! ## A sum over the two leading axes of a rank-3 array -/

section LeadingAxes

variable {A B C : Nat}

/-- Removing the two leading axes of a rank-3 index leaves its last coordinate. -/
theorem drop_lead_val (h : (⟨3, ![A, B, C]⟩ : Shape).ReducesTo [0, 1] (⟨1, ![C]⟩ : Shape))
    (j : (⟨3, ![A, B, C]⟩ : Shape).Idx) : (h.drop j 0 : Nat) = (j 2 : Nat) := rfl

/-- The sum over the two leading axes, read at last coordinate `c`: the entries that land on `c` are those whose last
    coordinate is `c`, one for each pair of leading coordinates. -/
theorem hostReduceAdd_lead (x : (⟨3, ![A, B, C]⟩ : Shape).Idx → EReal) (init : EReal)
    (h : (⟨3, ![A, B, C]⟩ : Shape).ReducesTo [0, 1] (⟨1, ![C]⟩ : Shape)) (c : Fin C) :
    Ideal.hostReduceAdd h x init (ix1 c) = init + ∑ a : Fin A, ∑ b : Fin B, x (ix3 a b c) := by
  unfold Ideal.hostReduceAdd
  refine congrArg (init + ·) ?_
  rw [← Fintype.sum_prod_type' (fun (a : Fin A) (b : Fin B) => x (ix3 a b c))]
  have last_eq : ∀ j : (⟨3, ![A, B, C]⟩ : Shape).Idx, h.drop j = ix1 c → (j 2 : Nat) = c.val := fun j hj =>
    (drop_lead_val h j).symm.trans (congrArg (fun q : (⟨1, ![C]⟩ : Shape).Idx => (q 0 : Nat)) hj)
  refine Finset.sum_nbij' (fun j => ((j 0, j 1) : Fin A × Fin B)) (fun p => ix3 p.1 p.2 c) ?_ ?_ ?_ ?_ ?_
  · intro j _; exact Finset.mem_univ _
  · intro p _
    refine Finset.mem_filter.mpr ⟨Finset.mem_univ _, ?_⟩
    funext d; apply Fin.ext
    match d with
    | ⟨0, _⟩ => exact drop_lead_val h (ix3 p.1 p.2 c)
  · intro j hj
    have e2 := last_eq j (Finset.mem_filter.mp hj).2
    funext d; apply Fin.ext
    match d with
    | ⟨0, _⟩ => rfl
    | ⟨1, _⟩ => rfl
    | ⟨2, _⟩ => exact e2.symm
  · intro p _; rfl
  · intro j hj
    have e2 := last_eq j (Finset.mem_filter.mp hj).2
    refine congrArg x ?_
    funext d; apply Fin.ext
    match d with
    | ⟨0, _⟩ => rfl
    | ⟨1, _⟩ => rfl
    | ⟨2, _⟩ => exact e2

end LeadingAxes

/-! ## Where the layout steps read -/

theorem idx8 (t : Fin 2048) (b : Fin 16) (c : Fin 1024) :
    Read.idx_main_v8 (ix3 t b c) = ix3 t b (0 : Fin 1) :=
  funext fun a => Fin.ext (by match a with | ⟨0, _⟩ => rfl | ⟨1, _⟩ => rfl | ⟨2, _⟩ => rfl)

theorem idx2 (t : Fin 2048) (b : Fin 16) :
    Read.idx_main_v2 (ix3 t b (0 : Fin 1)) = ix2 t b :=
  funext fun a => Fin.ext (by match a with | ⟨0, _⟩ => rfl | ⟨1, _⟩ => rfl)

theorem idx1 (t : Fin 2048) (b : Fin 16) (k : Fin 1024) :
    Read.idx_main_v1 (ix2 t b) k = ix3 t b k :=
  funext fun a => Fin.ext (by match a with | ⟨0, _⟩ => rfl | ⟨1, _⟩ => rfl | ⟨2, _⟩ => rfl)

/-- Mean square of a token plus the constant. -/
theorem meansq_read (x : SX.Idx → EReal) (t : Fin 2048) (b : Fin 16) :
    Read.val_main_v6 (F := Ideal) x (ix3 t b (0 : Fin 1)) = denom x t b := by
  rw [Read.val_main_v6_apply, Read.val_main_v4_apply, Read.val_main_v2_apply, Read.val_main_v1_apply,
    Read.val_main_v3_apply, Read.val_main_v5_apply, Read.val_main_cst_apply, Read.val_main_cst_0_apply,
    Read.val_main_cst_1_apply, idx2 t b]
  simp only [Read.val_main_v0_apply, idx1, Ideal.mulf_def, Ideal.addf_def, Ideal.hostDivf_def, Ideal.ofBits_def,
    Ideal.ofBits_zero_f32, zero_add]
  rfl

/-- The scaled entry. -/
theorem scaled_read (x : SX.Idx → EReal) (t : Fin 2048) (b : Fin 16) (c : Fin 1024) :
    Read.val_main_v9 (F := Ideal) x (ix3 t b c) = scaledR x t b c := by
  rw [Read.val_main_v9_apply, Read.val_main_v8_apply, Read.val_main_v7_apply, idx8 t b c, meansq_read x t b]
  rfl

theorem idx18 (t : Fin 2048) (b : Fin 16) (c : Fin 1024) :
    Read.idx_main_v18 (ix3 t b c) = ix3 t b (0 : Fin 1) :=
  funext fun a => Fin.ext (by match a with | ⟨0, _⟩ => rfl | ⟨1, _⟩ => rfl | ⟨2, _⟩ => rfl)

theorem idx16 (t : Fin 2048) (b : Fin 16) :
    Read.idx_main_v16 (ix3 t b (0 : Fin 1)) = ix2 t b :=
  funext fun a => Fin.ext (by match a with | ⟨0, _⟩ => rfl | ⟨1, _⟩ => rfl)

theorem idx11 (t : Fin 2048) (b : Fin 16) :
    Read.idx_main_v11 (ix2 t b) = ix2 b t :=
  funext fun a => Fin.ext (by match a with | ⟨0, _⟩ => rfl | ⟨1, _⟩ => rfl)

/-- The weight of a token: its negated mask bit as a number. -/
theorem weight_read (mask : SM.Idx → BitVec 1) (t : Fin 2048) (b : Fin 16) (c : Fin 1024) :
    Read.val_main_v18 (F := Ideal) mask (ix3 t b c) = validAt mask t b := by
  rw [Read.val_main_v18_apply, Read.val_main_v17_apply, Read.val_main_v16_apply, Read.val_main_v11_apply,
    Read.val_main_v10_apply, idx18 t b c, idx16 t b, idx11 t b]
  rfl

/-- The weighted square of the scaled entry. -/
theorem wsq_read (x : SX.Idx → EReal) (mask : SM.Idx → BitVec 1) (t : Fin 2048) (b : Fin 16) (c : Fin 1024) :
    Read.val_main_v19 (F := Ideal) x mask (ix3 t b c)
      = scaledR x t b c * scaledR x t b c * validAt mask t b := by
  rw [Read.val_main_v19_apply, Read.val_main_v15_apply, scaled_read x t b c, weight_read mask t b c]
  rfl

/-- The sum over all tokens of an array, read at channel `c` (the initial value is zero). -/
theorem sum_read (y : FVec Ideal S2048x16x1024 .f32) (c : Fin 1024) :
    Host.reduceAdd (F := Ideal) (φ := .f32) y (Read.val_main_cst_2 (F := Ideal)) reducesTo_S2048x16x1024_S1024_d0_1 h_S_ (ix1 c)
      = ∑ t : Fin 2048, ∑ b : Fin 16, y (ix3 t b c) := by
  simp only [Host.reduceAdd, Ideal.hostReduceAdd_def]
  rw [hostReduceAdd_lead y _ reducesTo_S2048x16x1024_S1024_d0_1 c, Read.val_main_cst_2_apply, Ideal.ofBits_def,
    Ideal.ofBits_zero_f32, zero_add]

/-- The channel's power statistic. -/
theorem power_read (x : SX.Idx → EReal) (mask : SM.Idx → BitVec 1) (c : Fin 1024) :
    Read.val_main_v20 (F := Ideal) x mask (ix1 c) = power (scaledR x) (validAt mask) c := by
  unfold Read.val_main_v20
  rw [sum_read]
  exact Finset.sum_congr rfl fun t _ => Finset.sum_congr rfl fun b _ => wsq_read x mask t b c

theorem idx21 (k : (⟨1, ![1024]⟩ : Shape).Idx) : Read.idx_main_v21 k = ix0 := funext fun a => a.elim0

/-- The channel's variance. -/
theorem var_read (x : SX.Idx → EReal) (mask : SM.Idx → BitVec 1) (c : Fin 1024) :
    Read.val_main_v22 (F := Ideal) x mask (ix1 c)
      = varR x (validAt mask) (Read.val_main_v14 (F := Ideal) mask ix0) (ix1 c) := by
  rw [Read.val_main_v22_apply, Read.val_main_v21_apply, power_read x mask c, idx21]
  rfl

/-- The root of the variance plus the constant. -/
theorem root_read (x : SX.Idx → EReal) (mask : SM.Idx → BitVec 1) (c : Fin 1024) :
    Read.val_main_v25 (F := Ideal) x mask (ix1 c)
      = Ideal.sqrt (varR x (validAt mask) (Read.val_main_v14 (F := Ideal) mask ix0) (ix1 c) + eps) := by
  rw [Read.val_main_v25_apply, Read.val_main_v24_apply, Read.val_main_v23_apply, Read.val_main_cst_3_apply,
    var_read x mask c]
  rfl

theorem idx27 (t : Fin 2048) (b : Fin 16) (c : Fin 1024) :
    Read.idx_main_v26 (Read.idx_main_v27 (ix3 t b c)) = ix1 c :=
  funext fun a => Fin.ext (by match a with | ⟨0, _⟩ => rfl)

theorem idx30 (t : Fin 2048) (b : Fin 16) (c : Fin 1024) :
    Read.idx_main_v29 (Read.idx_main_v30 (ix3 t b c)) = ix1 c :=
  funext fun a => Fin.ext (by match a with | ⟨0, _⟩ => rfl)

theorem idx33 (t : Fin 2048) (b : Fin 16) (c : Fin 1024) :
    Read.idx_main_v32 (Read.idx_main_v33 (ix3 t b c)) = ix1 c :=
  funext fun a => Fin.ext (by match a with | ⟨0, _⟩ => rfl)

/-- The reference's result as one function of its arguments. -/
theorem result_eq (x : SX.Idx → EReal) (w bias : SC.Idx → EReal) (mask : SM.Idx → BitVec 1) :
    Read.val_main_v34 (F := Ideal) x w bias mask
      = outR x w bias (varR x (validAt mask) (Read.val_main_v14 (F := Ideal) mask ix0)) := by
  funext j
  obtain ⟨t, b, c, rfl⟩ : ∃ t b c, j = ix3 t b c := ⟨j 0, j 1, j 2, eq_ix3 j⟩
  rw [Read.val_main_v34_apply, Read.val_main_v31_apply, Read.val_main_v33_apply, Read.val_main_v32_apply,
    Read.val_main_v30_apply, Read.val_main_v29_apply, Read.val_main_v28_apply, Read.val_main_v27_apply,
    Read.val_main_v26_apply, idx27 t b c, idx30 t b c, idx33 t b c, root_read x mask c, scaled_read x t b c]
  rfl

end Cert.ReferenceIdeal.RefValue

end
-- ==== Proof.RefCount.lean ====
/-
  The reference counts the valid tokens as a 32-bit integer sum of the widened token bits and converts the sum to a
  float. There are at most 32768 tokens, so the sum does not wrap and the float is the count itself.
-/
import proofs.«143038_j2413771621060_1_alg».proof.Proof.Gen.ReferenceIdeal.Read
import proofs.«143038_j2413771621060_1_alg».proof.Proof.Count

noncomputable section

namespace Cert.ReferenceIdeal.RefCount

open Cert.ReferenceIdeal Cert.ReferenceIdeal.Gen Idealize.ShloMosaic Idealize.ShloMosaic.TcCoe Idealize.SL.Sem Idealize.ShloMosaic.ValueIdx
open Cert

/-- The reference's token bit (t, b) is the negation of mask bit (b, t). -/
theorem tokenBits_apply (mask : Norm.SM.Idx → BitVec 1) (t : Fin 2048) (b : Fin 16) :
    Read.val_main_v11 (F := Ideal) mask (ix2 t b) = ~~~ mask (ix2 b t) := by
  rw [Read.val_main_v11_apply]
  exact congrArg (fun i => ~~~ mask i) (funext fun a => Fin.ext (by match a with | ⟨0, _⟩ => rfl | ⟨1, _⟩ => rfl))

/-- The reference's float count is the specification's count. -/
theorem count_eq (mask : Norm.SM.Idx → BitVec 1) : Read.val_main_v14 (F := Ideal) mask ix0 = Norm.count mask := by
  rw [Norm.count_eq mask (Read.val_main_v11 (F := Ideal) mask) (tokenBits_apply mask)]
  exact Norm.tokenCount_sitofp (Read.val_main_v11 (F := Ideal) mask) natLt_1_32 reducesTo_S2048x16_S_d0_1 h_S_

end Cert.ReferenceIdeal.RefCount

end
-- ==== Proof.PreCount.lean ====
/-
  The precondition's last conjunct says that the 32-bit count of valid tokens is greater than zero. The count does not
  wrap, so it is the number of clear mask bits, and that number is positive: the specification's count is a positive
  natural number.
-/
import proofs.«143038_j2413771621060_1_alg».proof.Proof.Gen.Pre_finite_inputs
import proofs.«143038_j2413771621060_1_alg».proof.Proof.Count
import Idealize.ShloMosaic.Lib.Affine
import Idealize.ShloMosaic.Lib.Pipeline.Value

noncomputable section

namespace Cert.Pre_finite_inputs.Count

open Cert.Pre_finite_inputs Idealize.ShloMosaic Idealize.ShloMosaic.ValueIdx
open Cert

variable [hP : Cert.Pre_finite_inputs.Facts]
open Cert.Pre_finite_inputs.Facts

/-- The token bits the precondition counts: the mask negated and transposed. -/
abbrev tokenBits (mask : S16x2048.Idx → BitVec 1) : Norm.SV.Idx → BitVec 1 :=
  transpose Norm.SV [1, 0] (noti mask) transposes_S16x2048_S2048x16_1_0

theorem tokenBits_apply (mask : S16x2048.Idx → BitVec 1) (t : Fin 2048) (b : Fin 16) :
    tokenBits mask (ix2 t b) = ~~~ mask (ix2 b t) :=
  transpose_apply [1, 0] (noti mask) transposes_S16x2048_S2048x16_1_0 (ix2 t b) (ix2 b t) (fun a => match a with
    | ⟨0, _⟩ => rfl
    | ⟨1, _⟩ => rfl)

/-- Under the precondition the count of valid tokens is a positive natural number. -/
theorem count_pos (x : FVec Ideal S2048x16x1024 .f32) (w bias : FVec Ideal S1024 .f32) (mask : S16x2048.Idx → BitVec 1)
    (h : fn (F := Ideal) x w bias mask = fun _ => 1#1) :
    ∃ N : ℕ, 0 < N ∧ Norm.count mask = (((N : ℕ) : ℝ) : EReal) := by
  have h0 : IntOp.andi _ (cmpi .sgt (Host.reduce IntOp.addi (extui 32 (tokenBits mask) natLt_1_32) (constantI S_ 32 0#32)
      reducesTo_S2048x16_S_d0_1 h_S_) (constantI S_ 32 0#32) ix0) = 1#1 := congrFun h ix0
  exact ⟨Norm.bitCount (tokenBits mask),
    Norm.tokenCount_sgt (tokenBits mask) natLt_1_32 reducesTo_S2048x16_S_d0_1 h_S_ (IntOp.andi_eq_one.mp h0).2,
    Norm.count_eq mask (tokenBits mask) (tokenBits_apply mask)⟩

end Cert.Pre_finite_inputs.Count

end
-- ==== Proof.Bridge.lean ====
/-
  Why the two formulas agree. For an extended real `a` with `0 < a` (possibly `+∞`) multiplying by the reciprocal root
  of `a` is dividing by its root: for a positive real both are the product with `1/√a`, and at `+∞` both are the
  product with `0`. Both arguments the programs take roots of are of this kind: a mean of squares plus a positive
  constant, and a quotient of a sum of nonnegative terms by a positive count plus that constant. So the scaled entries
  agree, hence the power statistics (the kernel's tile-by-tile sum is the same sum regrouped), hence the variances and
  the results. No entry has to be finite for this; what is needed is that the count of valid tokens is not zero
  (at a zero count the quotient is undefined and the two forms differ).
-/
import proofs.«143038_j2413771621060_1_alg».proof.Proof.Spec
import Mathlib.Data.EReal.Operations
import Mathlib.Data.EReal.Inv
import Mathlib.Algebra.BigOperators.Fin
import Mathlib.Logic.Equiv.Fin.Basic
import Mathlib.Data.Fintype.BigOperators

noncomputable section

open scoped BigOperators

namespace Cert.Norm

open Idealize.ShloMosaic Idealize.ShloMosaic.ValueIdx

/-! ## The two literals -/

/-- The constant under the roots is a positive real (about 1e-5). -/
theorem eps_eq : eps = ((10995116 * (2 : ℝ) ^ (-40 : ℤ) : ℝ) : EReal) := by
  simp [eps, Ideal.ofBits, Ideal.ieee, -EReal.coe_mul] <;> norm_num

theorem eps_pos : 0 < eps := by
  rw [eps_eq]; exact EReal.coe_pos.mpr (by positivity)

/-- The divisor of the mean is the real 1024. -/
theorem chan_eq : chan = ((1024 : ℝ) : EReal) := by
  simp [chan, Ideal.ofBits, Ideal.ieee, -EReal.coe_mul] <;> norm_num

/-! ## The law -/

/-- For `0 < a ≤ +∞`: the product with the reciprocal root is the quotient by the root. -/
theorem mul_rsqrt_eq_div_sqrt (x a : EReal) (ha : 0 < a) : x * Ideal.rsqrt a = Ideal.div x (Ideal.sqrt a) := by
  induction a using EReal.rec with
  | bot => exact absurd ha (not_lt_bot)
  | coe r =>
    have hr : 0 < r := by exact_mod_cast ha
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]
  | top =>
    rw [Ideal.rsqrt_top, Ideal.sqrt_top, Ideal.div, if_neg EReal.top_ne_zero, EReal.inv_top]

/-- A square is nonnegative, at the infinities too. -/
theorem mul_self_nonneg' (x : EReal) : 0 ≤ x * x := by
  rcases le_total 0 x with h | h
  · exact EReal.mul_nonneg_iff.mpr (Or.inl ⟨h, h⟩)
  · exact EReal.mul_nonneg_iff.mpr (Or.inr ⟨h, h⟩)

/-- A nonnegative extended real over a positive real, plus the constant, is positive. -/
theorem div_add_eps_pos (s : EReal) (hs : 0 ≤ s) (r : ℝ) (hr : 0 < r) : 0 < Ideal.div s (r : EReal) + eps := by
  have h0 : 0 ≤ Ideal.div s (r : EReal) := by
    rw [Ideal.div_coe hr.ne']
    exact EReal.mul_nonneg hs (EReal.coe_nonneg.mpr (by positivity))
  calc (0 : EReal) < eps := eps_pos
    _ = 0 + eps := (zero_add _).symm
    _ ≤ Ideal.div s (r : EReal) + eps := add_le_add h0 le_rfl

/-- The mean square plus the constant is positive (possibly `+∞`). -/
theorem denom_pos (x : SX.Idx → EReal) (t : Fin 2048) (b : Fin 16) : 0 < denom x t b := by
  unfold denom
  rw [chan_eq]
  exact div_add_eps_pos _ (Finset.sum_nonneg fun c _ => mul_self_nonneg' _) 1024 (by norm_num)

/-- The two forms of the scaled entry agree. -/
theorem scaledK_eq_scaledR (x : SX.Idx → EReal) : scaledK x = scaledR x := by
  funext t b c
  exact mul_rsqrt_eq_div_sqrt _ _ (denom_pos x t b)

/-! ## The sum over the tokens, tile by tile -/

/-- 2048 positions are 16 tiles of 128: a sum over the positions is the sum over the tiles of each tile's sum. -/
theorem sum_tiles {M : Type*} [AddCommMonoid M] (f : Fin 2048 → M) :
    ∑ t, f t = ∑ T : Fin 16, ∑ i : Fin 128, f (tok T i) := by
  rw [← Equiv.sum_comp (finProdFinEquiv : Fin 16 × Fin 128 ≃ Fin 2048) f, Fintype.sum_prod_type]
  refine Finset.sum_congr rfl fun T _ => Finset.sum_congr rfl fun i _ => congrArg f (Fin.ext ?_)
  show i.val + 128 * T.val = 128 * T.val + i.val
  exact Nat.add_comm _ _

theorem powerTiled_eq_power (g : Fin 2048 → Fin 16 → Fin 1024 → EReal) (v : Fin 2048 → Fin 16 → EReal) (c : Fin 1024) :
    powerTiled g v c = power g v c := by
  unfold powerTiled power
  exact (sum_tiles fun t => ∑ b : Fin 16, g t b c * g t b c * v t b).symm

theorem power_nonneg (g : Fin 2048 → Fin 16 → Fin 1024 → EReal) (v : Fin 2048 → Fin 16 → EReal) (hv : ∀ t b, 0 ≤ v t b)
    (c : Fin 1024) : 0 ≤ power g v c :=
  Finset.sum_nonneg fun t _ => Finset.sum_nonneg fun b _ => EReal.mul_nonneg (mul_self_nonneg' _) (hv t b)

/-- A token's weight is 0 or 1: nonnegative. -/
theorem validAt_nonneg (mask : SM.Idx → BitVec 1) (t : Fin 2048) (b : Fin 16) : 0 ≤ validAt mask t b :=
  EReal.coe_nonneg.mpr (Nat.cast_nonneg _)

/-! ## The results agree -/

/-- With nonnegative token weights and a positive count the kernel's result is the reference's. -/
theorem bridge (x : SX.Idx → EReal) (w bias : SC.Idx → EReal) (v : Fin 2048 → Fin 16 → EReal) (hv : ∀ t b, 0 ≤ v t b)
    (N : ℕ) (hN : 0 < N) :
    outK x w bias (varK x v (((N : ℕ) : ℝ) : EReal)) = outR x w bias (varR x v (((N : ℕ) : ℝ) : EReal)) := by
  funext j
  obtain ⟨t, b, c, rfl⟩ : ∃ (t : Fin 2048) (b : Fin 16) (c : Fin 1024), j = ix3 t b c := ⟨j 0, j 1, j 2, eq_ix3 j⟩
  have hN' : (0 : ℝ) < ((N : ℕ) : ℝ) := by exact_mod_cast hN
  have hvar : ∀ r : Fin 1024, varK x v (((N : ℕ) : ℝ) : EReal) (ix1 r) = varR x v (((N : ℕ) : ℝ) : EReal) (ix1 r) := by
    intro r
    show Ideal.div (powerTiled (scaledK x) v r) _ = Ideal.div (power (scaledR x) v r) _
    rw [powerTiled_eq_power, scaledK_eq_scaledR]
  have hpos : 0 < varR x v (((N : ℕ) : ℝ) : EReal) (ix1 c) + eps :=
    div_add_eps_pos _ (power_nonneg _ v hv c) _ hN'
  show w (ix1 c) * (scaledK x t b c * Ideal.rsqrt (varK x v _ (ix1 c) + eps)) + bias (ix1 c)
    = w (ix1 c) * Ideal.div (scaledR x t b c) (Ideal.sqrt (varR x v _ (ix1 c) + eps)) + bias (ix1 c)
  rw [hvar c, scaledK_eq_scaledR, mul_rsqrt_eq_div_sqrt _ _ hpos]

end Cert.Norm

end
-- ==== Proof.lean ====
/-
  The kernel normalises every token of x[t, b, c] by the root of its mean square over the channels (plus a small
  constant), accumulates per channel the squared normalised entries over the valid (non-padding) tokens, divides by the
  number of valid tokens to get a variance, and returns weight · (normalised entry / root of (variance + constant)) +
  bias. It multiplies by reciprocal roots where the reference divides by roots, sums the statistic tile by tile where
  the reference sums it at once, and counts the valid tokens as a float sum where the reference counts them as an
  integer. Over the extended reals these agree as soon as the count is not zero: the product with a reciprocal root of a
  positive (possibly infinite) number is the quotient by its root, a finite sum may be regrouped, and a count of at most
  32768 is the same number either way. At a zero count the reference's own variance is 0/0; the precondition excludes
  that one case (at least one token is valid). The three frames are the generated ones; the kernel's idealization
  rewrote nothing.
-/
import proofs.«143038_j2413771621060_1_alg».proof.Defs
import proofs.«143038_j2413771621060_1_alg».proof.Proof.Gen.Kernel
import proofs.«143038_j2413771621060_1_alg».proof.Proof.Gen.Kernel.Skeleton
import proofs.«143038_j2413771621060_1_alg».proof.Proof.Gen.Kernel.Launch
import proofs.«143038_j2413771621060_1_alg».proof.Proof.Gen.Kernel.Points
import proofs.«143038_j2413771621060_1_alg».proof.Proof.Gen.Kernel.Frame
import proofs.«143038_j2413771621060_1_alg».proof.Proof.Gen.KernelIdeal
import proofs.«143038_j2413771621060_1_alg».proof.Proof.Gen.KernelIdeal.Skeleton
import proofs.«143038_j2413771621060_1_alg».proof.Proof.Gen.KernelIdeal.Launch
import proofs.«143038_j2413771621060_1_alg».proof.Proof.Gen.KernelIdeal.Points
import proofs.«143038_j2413771621060_1_alg».proof.Proof.Gen.KernelIdeal.Frame
import proofs.«143038_j2413771621060_1_alg».proof.Proof.Gen.ReferenceIdeal
import proofs.«143038_j2413771621060_1_alg».proof.Proof.Gen.ReferenceIdeal.Run
import proofs.«143038_j2413771621060_1_alg».proof.Proof.Gen.ReferenceIdeal.Read
import proofs.«143038_j2413771621060_1_alg».proof.Proof.Gen.Pre_finite_inputs
import proofs.«143038_j2413771621060_1_alg».proof.Proof.KernelRun
import proofs.«143038_j2413771621060_1_alg».proof.Proof.KernelValue
import proofs.«143038_j2413771621060_1_alg».proof.Proof.RefValue
import proofs.«143038_j2413771621060_1_alg».proof.Proof.RefCount
import proofs.«143038_j2413771621060_1_alg».proof.Proof.PreCount
import proofs.«143038_j2413771621060_1_alg».proof.Proof.Bridge
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one array: the kernel's formula of the launched arguments, which under a positive count of
    valid tokens is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Norm.outK (Cert.KernelIdeal.Value.xin m c) (Cert.KernelIdeal.Value.win m c) (Cert.KernelIdeal.Value.bin m c)
      (Norm.varK (Cert.KernelIdeal.Value.xin m c) (Norm.validAt (Cert.KernelIdeal.Value.maskin m c)) (Norm.count (Cert.KernelIdeal.Value.maskin m c))),
    ?_, ?_⟩
  · exact (θ_run Cert.KernelIdeal.defs _ _).mono
      (fun r h c => ⟨(h c).1.trans (Cert.KernelIdeal.Value.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨N, hN, hc⟩ := Cert.Pre_finite_inputs.Count.count_pos (hP := Cert.Pre_finite_inputs.Gen.facts) _ _ _ _ (hpre c)
    rw [Cert.ReferenceIdeal.Read.val_main_v34_eq, Cert.ReferenceIdeal.RefValue.result_eq, Cert.ReferenceIdeal.RefCount.count_eq,
      (hagree c).1, (hagree c).2.1, (hagree c).2.2.1, (hagree c).2.2.2]
    show Norm.outR (Cert.KernelIdeal.Value.xin m c) (Cert.KernelIdeal.Value.win m c) (Cert.KernelIdeal.Value.bin m c)
        (Norm.varR (Cert.KernelIdeal.Value.xin m c) (Norm.validAt (Cert.KernelIdeal.Value.maskin m c)) (Norm.count (Cert.KernelIdeal.Value.maskin m c)))
      = Norm.outK (Cert.KernelIdeal.Value.xin m c) (Cert.KernelIdeal.Value.win m c) (Cert.KernelIdeal.Value.bin m c)
        (Norm.varK (Cert.KernelIdeal.Value.xin m c) (Norm.validAt (Cert.KernelIdeal.Value.maskin m c)) (Norm.count (Cert.KernelIdeal.Value.maskin m c)))
    rw [show Norm.count (Cert.KernelIdeal.Value.maskin m c) = (((N : ℕ) : ℝ) : EReal) from hc]
    exact (Norm.bridge (Cert.KernelIdeal.Value.xin m c) (Cert.KernelIdeal.Value.win m c) (Cert.KernelIdeal.Value.bin m c)
      (Norm.validAt (Cert.KernelIdeal.Value.maskin m c)) (Norm.validAt_nonneg (Cert.KernelIdeal.Value.maskin m c)) N hN).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
